-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S32x4096 : Shape := ⟨2, ![32, 4096]⟩
abbrev S8192x16 : Shape := ⟨2, ![8192, 16]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S2x512x4096 .f32) (main_arg1 : FVec F S32x4096 .f32) (main_arg2 : FVec F S8192x16 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S8192x16 .f32 := Host.absf main_arg2
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v8 main_v12
  main_v13
-- ==== Kernel.lean ====
abbrev S2x512x4096 : Shape := ⟨3, ![2, 512, 4096]⟩
abbrev S32x4096 : Shape := ⟨2, ![32, 4096]⟩
abbrev S8192x16 : Shape := ⟨2, ![8192, 16]⟩
abbrev S1024x4096 : Shape := ⟨2, ![1024, 4096]⟩
abbrev S2x16x4096 : Shape := ⟨3, ![2, 16, 4096]⟩
abbrev S2x4096x16 : Shape := ⟨3, ![2, 4096, 16]⟩
abbrev S1024x12288 : Shape := ⟨2, ![1024, 12288]⟩
abbrev S128x4096 : Shape := ⟨2, ![128, 4096]⟩
abbrev S128x12288 : Shape := ⟨2, ![128, 12288]⟩
abbrev S1x16x4096 : Shape := ⟨3, ![1, 16, 4096]⟩
abbrev S16x4096 : Shape := ⟨2, ![16, 4096]⟩
abbrev S1x4096x16 : Shape := ⟨3, ![1, 4096, 16]⟩
abbrev S4096x16 : Shape := ⟨2, ![4096, 16]⟩
abbrev S128x16 : Shape := ⟨2, ![128, 16]⟩
abbrev S2x512x12288 : Shape := ⟨3, ![2, 512, 12288]⟩

abbrev nBuf : Space → Nat
  | .hbm => 8
  | .vmem => 6
  | .smem => 0
  | _ => 0

abbrev bufTy : (tb : Table) → Fin (tcTables nBuf tb) → BufTy
  | .hbm, ⟨0, _⟩ => ⟨S2x512x4096, .f32⟩
  | .hbm, ⟨1, _⟩ => ⟨S32x4096, .f32⟩
  | .hbm, ⟨2, _⟩ => ⟨S8192x16, .f32⟩
  | .hbm, ⟨3, _⟩ => ⟨S1024x4096, .f32⟩
  | .hbm, ⟨4, _⟩ => ⟨S2x16x4096, .f32⟩
  | .hbm, ⟨5, _⟩ => ⟨S2x4096x16, .f32⟩
  | .hbm, ⟨6, _⟩ => ⟨S1024x12288, .f32⟩
  | .hbm, ⟨7, _⟩ => ⟨S2x512x12288, .f32⟩
  | .local _ .vmem, ⟨0, _⟩ => ⟨S128x4096, .f32⟩
  | .local _ .vmem, ⟨1, _⟩ => ⟨S128x4096, .f32⟩
  | .local _ .vmem, ⟨2, _⟩ => ⟨S2x16x4096, .f32⟩
  | .local _ .vmem, ⟨3, _⟩ => ⟨S2x4096x16, .f32⟩
  | .local _ .vmem, ⟨4, _⟩ => ⟨S128x12288, .f32⟩
  | .local _ .vmem, ⟨5, _⟩ => ⟨S128x12288, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x512x4096_S1024x4096 : S2x512x4096.ShapeCasts S1024x4096
  shapeCasts_S32x4096_S2x16x4096 : S32x4096.ShapeCasts S2x16x4096
  shapeCasts_S8192x16_S2x4096x16 : S8192x16.ShapeCasts S2x4096x16
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S2x16x4096_S1x16x4096_0_0_0 : ∀ a, (![0, 0, 0] : Fin 3 → Nat) a + S1x16x4096.size a ≤ S2x16x4096.size a
  h_S1x16x4096 : 0 < S1x16x4096.numel
  shapeCasts_S1x16x4096_S16x4096 : S1x16x4096.ShapeCasts S16x4096
  inb_S2x4096x16_S1x4096x16_0_0_0 : ∀ a, (![0, 0, 0] : Fin 3 → Nat) a + S1x4096x16.size a ≤ S2x4096x16.size a
  h_S1x4096x16 : 0 < S1x4096x16.numel
  shapeCasts_S1x4096x16_S4096x16 : S1x4096x16.ShapeCasts S4096x16
  transposes_S16x4096_p1_0_S4096x16 : S16x4096.Transposes [1, 0] S4096x16
  transposes_S4096x16_p1_0_S16x4096 : S4096x16.Transposes [1, 0] S16x4096
  inb_S2x16x4096_S1x16x4096_1_0_0 : ∀ a, (![1, 0, 0] : Fin 3 → Nat) a + S1x16x4096.size a ≤ S2x16x4096.size a
  inb_S2x4096x16_S1x4096x16_1_0_0 : ∀ a, (![1, 0, 0] : Fin 3 → Nat) a + S1x4096x16.size a ≤ S2x4096x16.size a
  inb_S128x12288_S128x4096_0_0 : ∀ a, (![0, 0] : Fin 2 → Nat) a + S128x4096.size a ≤ S128x12288.size a
  inb_S128x12288_S128x4096_0_4096 : ∀ a, (![0, 4096] : Fin 2 → Nat) a + S128x4096.size a ≤ S128x12288.size a
  inb_S128x12288_S128x4096_0_8192 : ∀ a, (![0, 8192] : Fin 2 → Nat) a + S128x4096.size a ≤ S128x12288.size a
  shapeCasts_S1024x12288_S2x512x12288 : S1024x12288.ShapeCasts S2x512x12288
  dot_S128x4096_S4096x16_S128x16_1_0_0_1_n_n_wf : DotDims.WF S128x4096 S4096x16 S128x16 [1] [0] [0] [1] [] []
  dot_S128x16_S16x4096_S128x4096_1_0_0_1_n_n_wf : DotDims.WF S128x16 S16x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S1024x4096.size a
  hwx0_0 : ∀ i : grid0.Coords, EltTy.bits .f32 = 32 ∨ (Rect.block (s := S1024x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16x4096.size a ≤ S2x16x4096.size a
  hwx0_1 : ∀ i : grid0.Coords, EltTy.bits .f32 = 32 ∨ (Rect.block (s := S2x16x4096) S2x16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x4096x16.size a ≤ S2x4096x16.size a
  hwx0_2 : ∀ i : grid0.Coords, EltTy.bits .f32 = 32 ∨ (Rect.block (s := S2x4096x16) S2x4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x12288.size a ≤ S1024x12288.size a
  hwx0_3 : ∀ i : grid0.Coords, EltTy.bits .f32 = 32 ∨ (Rect.block (s := S1024x12288) S128x12288.size (cc0_transform_3 i) (hinb0_3 i)).WholeWords (EltTy.packing .f32)

variable [Facts₀]

def dot_S128x4096_S4096x16_S128x16_1_0_0_1_n_n : DotDims S128x4096 S4096x16 S128x16 where
  lhsContracting := [1]
  rhsContracting := [0]
  lhsNonContracting := [0]
  rhsNonContracting := [1]
  lhsBatch := []
  rhsBatch := []
  wf := dot_S128x4096_S4096x16_S128x16_1_0_0_1_n_n_wf
def dot_S128x16_S16x4096_S128x4096_1_0_0_1_n_n : DotDims S128x16 S16x4096 S128x4096 where
  lhsContracting := [1]
  rhsContracting := [0]
  lhsNonContracting := [0]
  rhsNonContracting := [1]
  lhsBatch := []
  rhsBatch := []
  wf := dot_S128x16_S16x4096_S128x4096_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x12288.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S32x4096 : Shape := ⟨2, ![32, 4096]⟩
abbrev S8192x16 : Shape := ⟨2, ![8192, 16]⟩
abbrev S2 : Shape := ⟨1, ![2]⟩
abbrev S2x16x4096 : Shape := ⟨3, ![2, 16, 4096]⟩
abbrev S2x4096x16 : Shape := ⟨3, ![2, 4096, 16]⟩
abbrev S2x4096x4096 : Shape := ⟨3, ![2, 4096, 4096]⟩
abbrev S_ : Shape := ⟨0, ![]⟩
abbrev S3x4096x4096 : Shape := ⟨3, ![3, 4096, 4096]⟩
abbrev S2x1 : Shape := ⟨2, ![2, 1]⟩
abbrev S12288x4096 : Shape := ⟨2, ![12288, 4096]⟩
abbrev S2x512x12288 : Shape := ⟨3, ![2, 512, 12288]⟩

abbrev nBuf : Space → Nat
  | .hbm => 20
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S32x4096, .f32⟩
  | .hbm, ⟨2, _⟩ => ⟨S8192x16, .f32⟩
  | .hbm, ⟨3, _⟩ => ⟨S2, .i32⟩
  | .hbm, ⟨4, _⟩ => ⟨S2x16x4096, .f32⟩
  | .hbm, ⟨5, _⟩ => ⟨S2x4096x16, .f32⟩
  | .hbm, ⟨6, _⟩ => ⟨S2x4096x4096, .f32⟩
  | .hbm, ⟨7, _⟩ => ⟨S_, .f32⟩
  | .hbm, ⟨8, _⟩ => ⟨S3x4096x4096, .f32⟩
  | .hbm, ⟨9, _⟩ => ⟨S_, .i32⟩
  | .hbm, ⟨10, _⟩ => ⟨S2, .i32⟩
  | .hbm, ⟨11, _⟩ => ⟨S2, .i1⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S2, .i32⟩
  | .hbm, ⟨16, _⟩ => ⟨S2x1, .i32⟩
  | .hbm, ⟨17, _⟩ => ⟨S3x4096x4096, .f32⟩
  | .hbm, ⟨18, _⟩ => ⟨S12288x4096, .f32⟩
  | .hbm, ⟨19, _⟩ => ⟨S2x512x12288, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S32x4096_S2x16x4096 : S32x4096.ShapeCasts S2x16x4096
  shapeCasts_S8192x16_S2x4096x16 : S8192x16.ShapeCasts S2x4096x16
  bcast_S_S3x4096x4096 : S_.BroadcastsInDim S3x4096x4096 (![] : Fin 0 → Fin S3x4096x4096.rank)
  bcast_S_S2 : S_.BroadcastsInDim S2 (![] : Fin 0 → Fin S2.rank)
  bcast_S2_S2x1_0 : S2.BroadcastsInDim S2x1 (![0] : Fin 1 → Fin S2x1.rank)
  shapeCasts_S3x4096x4096_S12288x4096 : S3x4096x4096.ShapeCasts S12288x4096
  dot_S2x4096x16_S2x16x4096_S2x4096x4096_2_1_1_2_0_0_wf : DotDims.WF S2x4096x16 S2x16x4096 S2x4096x4096 [2] [1] [1] [2] [0] [0]
  scatter_S3x4096x4096_S2x1_S2x4096x4096_12_0_0_1_wf : ScatterDims.WF S3x4096x4096 S2x1 S2x4096x4096 [1, 2] [0] [0] 1
  dot_S2x512x4096_S12288x4096_S2x512x12288_2_1_01_0_n_n_wf : DotDims.WF S2x512x4096 S12288x4096 S2x512x12288 [2] [1] [0, 1] [0] [] []

variable [Facts₀]

def dot_S2x4096x16_S2x16x4096_S2x4096x4096_2_1_1_2_0_0 : DotDims S2x4096x16 S2x16x4096 S2x4096x4096 where
  lhsContracting := [2]
  rhsContracting := [1]
  lhsNonContracting := [1]
  rhsNonContracting := [2]
  lhsBatch := [0]
  rhsBatch := [0]
  wf := dot_S2x4096x16_S2x16x4096_S2x4096x4096_2_1_1_2_0_0_wf
def scatter_S3x4096x4096_S2x1_S2x4096x4096_12_0_0_1 : ScatterDims S3x4096x4096 S2x1 S2x4096x4096 where
  updateWindowDims := [1, 2]
  insertedWindowDims := [0]
  scatterDimsToOperandDims := [0]
  indexVectorDim := 1
  wf := scatter_S3x4096x4096_S2x1_S2x4096x4096_12_0_0_1_wf
def dot_S2x512x4096_S12288x4096_S2x512x12288_2_1_01_0_n_n : DotDims S2x512x4096 S12288x4096 S2x512x12288 where
  lhsContracting := [2]
  rhsContracting := [1]
  lhsNonContracting := [0, 1]
  rhsNonContracting := [0]
  lhsBatch := []
  rhsBatch := []
  wf := dot_S2x512x4096_S12288x4096_S2x512x12288_2_1_01_0_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KPay.lean ====
/-
  The kernel body's stored values read at an entry, at the ideal values: each of the two products is the factored
  arrangement over the loaded blocks, the middle store is zero.
-/
import proofs.«156483_j58076547776655_1_alg».proof.Proof.Gen.KernelIdeal.Skeleton
import proofs.«156483_j58076547776655_1_alg».proof.Proof.LibDot
import Idealize.ShloMosaic.Lib.Pipeline.Value

noncomputable section

namespace Cert.KernelIdeal.Pay

open Idealize.ShloMosaic Idealize.ShloMosaic.ValueIdx Cert.KernelIdeal Cert.KernelIdeal.Gen

/-- A transpose of a matrix read at entry `(a, b)` is the matrix at `(b, a)`. -/
private theorem transpose2_apply {α : Type} {m n : ℕ} (x : (⟨2, ![m, n]⟩ : Shape).Idx → α)
    (h : (⟨2, ![m, n]⟩ : Shape).Transposes [1, 0] ⟨2, ![n, m]⟩) (a : Fin n) (b : Fin m) :
    transpose ⟨2, ![n, m]⟩ [1, 0] x h (ix2 a b) = x (ix2 b a) :=
  transpose_apply [1, 0] x h (ix2 a b) (ix2 b a) fun c => by
    match c with
    | ⟨0, _⟩ => rfl
    | ⟨1, _⟩ => rfl

/-- A `1 × m × n` block with its unit axis dropped, read at entry `(a, b)`, is the block at `(0, a, b)`. -/
private theorem dropUnit3_apply {α : Type} {m n : ℕ} (x : (⟨3, ![1, m, n]⟩ : Shape).Idx → α)
    (h : (⟨3, ![1, m, n]⟩ : Shape).ShapeCasts ⟨2, ![m, n]⟩) (a : Fin m) (b : Fin n) :
    shapeCast ⟨2, ![m, n]⟩ x h (ix2 a b) = x (ix3 0 a b) := by
  refine (shapeCast_dropUnit_apply ![m, n] x h (ix2 a b)).trans (congrArg x ?_)
  funext c
  match c with
  | ⟨0, _⟩ => rfl
  | ⟨1, _⟩ => rfl
  | ⟨2, _⟩ => rfl

/-- The first stored product at entry `(p, q)`. Both products are plain "rows by columns" products into a zero
    accumulator, and at the ideal values the narrowing to the shorter format changes nothing. The outer product is
    `∑ k, t (p, k) · Bᵀ (k, q)` with `Bᵀ (k, q) = b (0, q, k)`; the inner one is
    `t (p, k) = ∑ i, x0 (p, i) · Aᵀ (i, k)` with `Aᵀ (i, k) = a (0, k, i)`. -/
theorem pay2_apply (x0 : FVec Ideal S128x4096 .f32) (a : FVec Ideal S1x16x4096 .f32) (b : FVec Ideal S1x4096x16 .f32)
    (p : Fin 128) (q : Fin 4096) :
    k0_pay2 (F := Ideal) x0 a b (ix2 p q)
      = ∑ k : Fin 16, (∑ i : Fin 4096, x0 (ix2 p i) * a (ix3 0 k i)) * b (ix3 0 q k) := by
  unfold k0_pay2 k0_pay1
  dsimp only
  -- the two printed dimension records are the plain ones
  have hd1 : dot_S128x16_S16x4096_S128x4096_1_0_0_1_n_n = DotDims.plain 128 16 4096 := rfl
  have hd2 : dot_S128x4096_S4096x16_S128x16_1_0_0_1_n_n = DotDims.plain 128 4096 16 := rfl
  rw [hd1, hd2]
  -- the outer product, a sum over the 16 middle columns
  refine (Cert.GNN.matmul_plain_zero_apply none _ _ p q).trans ?_
  refine Finset.sum_congr rfl fun k _ => ?_
  refine congrArg₂ (· * ·) ?_ ?_
  · -- the left factor: the inner product at `(p, k)`, a sum over the 4096 input columns
    refine (Cert.GNN.matmul_plain_zero_apply none
      (truncf .bf16 (shapeCast S128x4096 x0 shapeCasts_S128x4096_S128x4096) bitsLt_bf16_f32)
      (transpose S4096x16 [1, 0] (truncf .bf16 (shapeCast S16x4096 a shapeCasts_S1x16x4096_S16x4096) bitsLt_bf16_f32)
        transposes_S16x4096_p1_0_S4096x16) p k).trans ?_
    refine Finset.sum_congr rfl fun i _ => ?_
    refine congrArg₂ (· * ·) ?_ ?_
    · -- the input block re-cast to its own shape
      exact congrFun (shapeCast_self x0 shapeCasts_S128x4096_S128x4096) (ix2 p i)
    · -- `Aᵀ (i, k) = a (0, k, i)`
      exact (transpose2_apply _ _ i k).trans (dropUnit3_apply a _ k i)
  · -- the right factor: `Bᵀ (k, q) = b (0, q, k)`
    exact (transpose2_apply _ _ k q).trans (dropUnit3_apply b _ q k)

/-- The second stored product at entry `(p, q)`: the same arrangement as the first, over the second pair of
    loaded blocks. -/
theorem pay3_apply (x0 : FVec Ideal S128x4096 .f32) (a : FVec Ideal S1x16x4096 .f32) (b : FVec Ideal S1x4096x16 .f32)
    (p : Fin 128) (q : Fin 4096) :
    k0_pay3 (F := Ideal) x0 a b (ix2 p q)
      = ∑ k : Fin 16, (∑ i : Fin 4096, x0 (ix2 p i) * a (ix3 0 k i)) * b (ix3 0 q k) :=
  pay2_apply x0 a b p q

/-- The middle store is the constant whose bits are all zero, which is the number zero. -/
theorem pay4_apply (p : Fin 128) (q : Fin 4096) : k0_pay4 (F := Ideal) (ix2 p q) = 0 := by
  unfold k0_pay4
  dsimp only [broadcast]
  exact Ideal.ofBits_zero_f32

end Cert.KernelIdeal.Pay

end
-- ==== Proof.KBlock.lean ====
/-
  What the kernel body leaves in the output block, read at an entry: columns below 4096 hold group 0's product,
  columns from 4096 to 8191 hold zero, columns from 8192 hold group 1's product.
-/
import proofs.«156483_j58076547776655_1_alg».proof.Proof.Gen.KernelIdeal.Frame
import proofs.«156483_j58076547776655_1_alg».proof.Proof.KPay

noncomputable section

namespace Cert.KernelIdeal.Pay

open Idealize.ShloMosaic Idealize.ShloMosaic.ValueIdx Cert.KernelIdeal Cert.KernelIdeal.Gen

/-! ## The three column rectangles of the output block -/

/-- A store into the output block: a rectangle of it and the payload. -/
private abbrev OutPiece := View.Piece (Elt Ideal) S128x12288 .f32

/-- The rectangle at column offset 0 places (p, q) at (p, q). -/
private theorem emb5 (p : Fin 128) (q : Fin 4096) (h : q.val < 12288) :
    r0_5.emb (ix2 p q) = ix2 p ⟨q.val, h⟩ := by
  funext a
  match a with
  | ⟨0, _⟩ => exact Fin.ext (by show 0 + 1 * p.val = p.val; omega)
  | ⟨1, _⟩ => exact Fin.ext (by show 0 + 1 * q.val = q.val; omega)

/-- The rectangle at column offset 4096 places (p, q) at (p, q + 4096). -/
private theorem emb6 (p : Fin 128) (q : Fin 4096) (h : q.val + 4096 < 12288) :
    r0_6.emb (ix2 p q) = ix2 p ⟨q.val + 4096, h⟩ := by
  funext a
  match a with
  | ⟨0, _⟩ => exact Fin.ext (by show 0 + 1 * p.val = p.val; omega)
  | ⟨1, _⟩ => exact Fin.ext (by show 4096 + 1 * q.val = q.val + 4096; omega)

/-- The rectangle at column offset 8192 places (p, q) at (p, q + 8192). -/
private theorem emb7 (p : Fin 128) (q : Fin 4096) (h : q.val + 8192 < 12288) :
    r0_7.emb (ix2 p q) = ix2 p ⟨q.val + 8192, h⟩ := by
  funext a
  match a with
  | ⟨0, _⟩ => exact Fin.ext (by show 0 + 1 * p.val = p.val; omega)
  | ⟨1, _⟩ => exact Fin.ext (by show 8192 + 1 * q.val = q.val + 8192; omega)

/-- An entry in a column below 8192 is outside the rectangle at column offset 8192. -/
private theorem not_mem7 (p : Fin 128) (o : Fin 12288) (h : o.val < 8192) : ix2 p o ∉ r0_7.set := by
  intro hm
  have h1 : 8192 ≤ o.val := ((Rect.mem_set_unit.mp hm) 1).1
  omega

/-- An entry in a column below 4096 is outside the rectangle at column offset 4096. -/
private theorem not_mem6 (p : Fin 128) (o : Fin 12288) (h : o.val < 4096) : ix2 p o ∉ r0_6.set := by
  intro hm
  have h1 : 4096 ≤ o.val := ((Rect.mem_set_unit.mp hm) 1).1
  omega

/-- A last store at column offset 8192 leaves an entry in a column below 8192 as the earlier stores left it. -/
private theorem skip7 (w : r0_7.shape.Idx → Elt Ideal .f32) (L : List OutPiece) (p : Fin 128) (o : Fin 12288)
    (h : o.val < 8192) : View.canon ((⟨r0_7, w⟩ : OutPiece) :: L) (ix2 p o) = View.canon L (ix2 p o) :=
  View.canon_cons_of_not_mem (⟨r0_7, w⟩ : OutPiece) L (y := ix2 p o) (not_mem7 p o h)

/-- A last store at column offset 4096 leaves an entry in a column below 4096 as the earlier stores left it. -/
private theorem skip6 (w : r0_6.shape.Idx → Elt Ideal .f32) (L : List OutPiece) (p : Fin 128) (o : Fin 12288)
    (h : o.val < 4096) : View.canon ((⟨r0_6, w⟩ : OutPiece) :: L) (ix2 p o) = View.canon L (ix2 p o) :=
  View.canon_cons_of_not_mem (⟨r0_6, w⟩ : OutPiece) L (y := ix2 p o) (not_mem6 p o h)

/-- Under a last store at column offset 0, an entry in a column below 4096 is the payload at the same entry. -/
private theorem hit5 (w : r0_5.shape.Idx → Elt Ideal .f32) (L : List OutPiece) (p : Fin 128) (o : Fin 12288)
    (h : o.val < 4096) : View.canon ((⟨r0_5, w⟩ : OutPiece) :: L) (ix2 p o) = w (ix2 p ⟨o.val, h⟩) :=
  (congrArg (View.canon ((⟨r0_5, w⟩ : OutPiece) :: L)) (emb5 p ⟨o.val, h⟩ o.isLt).symm).trans
    (View.canon_cons_emb r0_5 w L (ix2 p ⟨o.val, h⟩))

/-- Under a last store at column offset 4096, an entry in a column from 4096 to 8191 is the payload 4096 columns
    to the left. -/
private theorem hit6 (w : r0_6.shape.Idx → Elt Ideal .f32) (L : List OutPiece) (p : Fin 128) (o : Fin 12288)
    (h1 : 4096 ≤ o.val) (h2 : o.val < 8192) :
    View.canon ((⟨r0_6, w⟩ : OutPiece) :: L) (ix2 p o) = w (ix2 p ⟨o.val - 4096, by omega⟩) := by
  have e : r0_6.emb (ix2 p (⟨o.val - 4096, by omega⟩ : Fin 4096)) = ix2 p o :=
    (emb6 p ⟨o.val - 4096, by omega⟩ (by show o.val - 4096 + 4096 < 12288; omega)).trans
      (congrArg (ix2 p) (Fin.ext (by show o.val - 4096 + 4096 = o.val; omega)))
  exact (congrArg (View.canon ((⟨r0_6, w⟩ : OutPiece) :: L)) e.symm).trans
    (View.canon_cons_emb r0_6 w L (ix2 p ⟨o.val - 4096, by omega⟩))

/-- Under a last store at column offset 8192, an entry in a column from 8192 is the payload 8192 columns to the
    left. -/
private theorem hit7 (w : r0_7.shape.Idx → Elt Ideal .f32) (L : List OutPiece) (p : Fin 128) (o : Fin 12288)
    (h1 : 8192 ≤ o.val) :
    View.canon ((⟨r0_7, w⟩ : OutPiece) :: L) (ix2 p o) = w (ix2 p ⟨o.val - 8192, by omega⟩) := by
  have e : r0_7.emb (ix2 p (⟨o.val - 8192, by omega⟩ : Fin 4096)) = ix2 p o :=
    (emb7 p ⟨o.val - 8192, by omega⟩ (by show o.val - 8192 + 8192 < 12288; omega)).trans
      (congrArg (ix2 p) (Fin.ext (by show o.val - 8192 + 8192 = o.val; omega)))
  exact (congrArg (View.canon ((⟨r0_7, w⟩ : OutPiece) :: L)) e.symm).trans
    (View.canon_cons_emb r0_7 w L (ix2 p ⟨o.val - 8192, by omega⟩))

/-! ## The loads: each slab places its own index at offset + coordinate per axis -/

private theorem idx0 (p : Fin 128) (i : Fin 4096) : r0_0.idx (ix2 p i) = ix2 p i := by
  funext a
  match a with
  | ⟨0, _⟩ => exact Fin.ext (by show 0 + 1 * p.val = p.val; omega)
  | ⟨1, _⟩ => exact Fin.ext (by show 0 + 1 * i.val = i.val; omega)

private theorem idx1 (k : Fin 16) (i : Fin 4096) : r0_1.idx (ix3 0 k i) = ix3 0 k i := by
  funext a
  match a with
  | ⟨0, _⟩ => exact Fin.ext (by show 0 + 1 * 0 = 0; omega)
  | ⟨1, _⟩ => exact Fin.ext (by show 0 + 1 * k.val = k.val; omega)
  | ⟨2, _⟩ => exact Fin.ext (by show 0 + 1 * i.val = i.val; omega)

private theorem idx2 (q : Fin 4096) (k : Fin 16) : r0_2.idx (ix3 0 q k) = ix3 0 q k := by
  funext a
  match a with
  | ⟨0, _⟩ => exact Fin.ext (by show 0 + 1 * 0 = 0; omega)
  | ⟨1, _⟩ => exact Fin.ext (by show 0 + 1 * q.val = q.val; omega)
  | ⟨2, _⟩ => exact Fin.ext (by show 0 + 1 * k.val = k.val; omega)

private theorem idx3 (k : Fin 16) (i : Fin 4096) : r0_3.idx (ix3 0 k i) = ix3 1 k i := by
  funext a
  match a with
  | ⟨0, _⟩ => exact Fin.ext (by show 1 + 1 * 0 = 1; omega)
  | ⟨1, _⟩ => exact Fin.ext (by show 0 + 1 * k.val = k.val; omega)
  | ⟨2, _⟩ => exact Fin.ext (by show 0 + 1 * i.val = i.val; omega)

private theorem idx4 (q : Fin 4096) (k : Fin 16) : r0_4.idx (ix3 0 q k) = ix3 1 q k := by
  funext a
  match a with
  | ⟨0, _⟩ => exact Fin.ext (by show 1 + 1 * 0 = 1; omega)
  | ⟨1, _⟩ => exact Fin.ext (by show 0 + 1 * q.val = q.val; omega)
  | ⟨2, _⟩ => exact Fin.ext (by show 0 + 1 * k.val = k.val; omega)

theorem out0_3_apply (x0 : FVec Ideal S128x4096 .f32) (x1 : FVec Ideal S2x16x4096 .f32) (x2 : FVec Ideal S2x4096x16 .f32)
    (p : Fin 128) (o : Fin 12288) :
    out0_3 (F := Ideal) x0 x1 x2 (ix2 p o)
      = if h0 : o.val < 4096 then ∑ k : Fin 16, (∑ i : Fin 4096, x0 (ix2 p i) * x1 (ix3 0 k i)) * x2 (ix3 0 ⟨o.val, h0⟩ k)
        else if o.val < 8192 then 0
        else ∑ k : Fin 16, (∑ i : Fin 4096, x0 (ix2 p i) * x1 (ix3 1 k i)) * x2 (ix3 1 ⟨o.val - 8192, by omega⟩ k) := by
  have hx0 : ∀ i : Fin 4096, View.ld (Val := Elt Ideal) (e' := .f32) x0 r0_0 (ix2 p i) = x0 (ix2 p i) :=
    fun i => congrArg x0 (idx0 p i)
  unfold out0_3
  by_cases h0 : o.val < 4096
  · -- columns below 4096: the first store, under two later ones that miss the entry
    rw [dif_pos h0]
    refine (skip7 _ _ p o (by omega)).trans ((skip6 _ _ p o h0).trans ((hit5 _ _ p o h0).trans ?_))
    refine (pay2_apply _ _ _ p ⟨o.val, h0⟩).trans ?_
    refine Finset.sum_congr rfl fun k _ => ?_
    have hb : View.ld (Val := Elt Ideal) (e' := .f32) x2 r0_2 (ix3 0 ⟨o.val, h0⟩ k) = x2 (ix3 0 ⟨o.val, h0⟩ k) :=
      congrArg x2 (idx2 ⟨o.val, h0⟩ k)
    rw [hb]
    refine congrArg (· * _) (Finset.sum_congr rfl fun i _ => ?_)
    have ha : View.ld (Val := Elt Ideal) (e' := .f32) x1 r0_1 (ix3 0 k i) = x1 (ix3 0 k i) := congrArg x1 (idx1 k i)
    rw [hx0 i, ha]
  · rw [dif_neg h0]
    by_cases h1 : o.val < 8192
    · -- columns from 4096 to 8191: the zero store, under one later store that misses the entry
      rw [if_pos h1]
      refine (skip7 _ _ p o h1).trans ((hit6 _ _ p o (by omega) h1).trans ?_)
      exact pay4_apply p _
    · -- columns from 8192: the last store
      rw [if_neg h1]
      refine (hit7 _ _ p o (by omega)).trans ?_
      refine (pay3_apply _ _ _ p ⟨o.val - 8192, by omega⟩).trans ?_
      refine Finset.sum_congr rfl fun k _ => ?_
      have hb : View.ld (Val := Elt Ideal) (e' := .f32) x2 r0_4 (ix3 0 ⟨o.val - 8192, by omega⟩ k)
          = x2 (ix3 1 ⟨o.val - 8192, by omega⟩ k) := congrArg x2 (idx4 ⟨o.val - 8192, by omega⟩ k)
      rw [hb]
      refine congrArg (· * _) (Finset.sum_congr rfl fun i _ => ?_)
      have ha : View.ld (Val := Elt Ideal) (e' := .f32) x1 r0_3 (ix3 0 k i) = x1 (ix3 1 k i) := congrArg x1 (idx3 k i)
      rw [hx0 i, ha]

end Cert.KernelIdeal.Pay

end
-- ==== Proof.KArr.lean ====
/-
  The array the kernel's region leaves, as one function of the three arrays it reads.

  The grid has 8 points; point `t` reads rows 128 t … 128 t + 127 of the flattened input and the two factor stacks
  whole, and writes rows 128 t … 128 t + 127 of the 1024 × 12288 output. Row `r`, column `o` of the output is the
  factored product of group 0 for o < 4096, zero for 4096 ≤ o < 8192, the factored product of group 1 above.
-/
import proofs.«156483_j58076547776655_1_alg».proof.Proof.Gen.KernelIdeal.Frame
import proofs.«156483_j58076547776655_1_alg».proof.Proof.KBlock
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Pay
open Idealize.ShloMosaic.Pipeline (Dat Cfg Window)

variable (m : (ℓ : Loc nD τ sig) → Buf (Elt Ideal) ℓ)

theorem col_lt (j : S1024x12288.Idx) : (j 1).val < 12288 := (j 1).isLt

/-- The output array from the flattened input `X` and the two reshaped factor stacks `A`, `B`. -/
def arrG (X : FVec Ideal S1024x4096 .f32) (A : FVec Ideal S2x16x4096 .f32) (B : FVec Ideal S2x4096x16 .f32) :
    FVec Ideal S1024x12288 .f32 := fun j =>
  if h0 : (j 1).val < 4096 then ∑ k : Fin 16, (∑ i : Fin 4096, X (ix2 (j 0) i) * A (ix3 0 k i)) * B (ix3 0 ⟨(j 1).val, h0⟩ k)
  else if (j 1).val < 8192 then 0
  else ∑ k : Fin 16, (∑ i : Fin 4096, X (ix2 (j 0) i) * A (ix3 1 k i)) * B (ix3 1 ⟨(j 1).val - 8192, by have := col_lt j; omega⟩ k)

theorem arrG_apply (X : FVec Ideal S1024x4096 .f32) (A : FVec Ideal S2x16x4096 .f32) (B : FVec Ideal S2x4096x16 .f32)
    (r : Fin 1024) (o : Fin 12288) :
    arrG X A B (ix2 r o)
      = if h0 : o.val < 4096 then ∑ k : Fin 16, (∑ i : Fin 4096, X (ix2 r i) * A (ix3 0 k i)) * B (ix3 0 ⟨o.val, h0⟩ k)
        else if o.val < 8192 then 0
        else ∑ k : Fin 16, (∑ i : Fin 4096, X (ix2 r i) * A (ix3 1 k i)) * B (ix3 1 ⟨o.val - 8192, by omega⟩ k) := rfl

theorem point_lt (t : Fin cfg0.N) : t.val < 8 := by have := t.isLt; have e : cfg0.N = 8 := N_0; omega

/-- The block indices of the four windows at every grid point: the row windows sit at block row `t`, the factor
    stacks at block 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row `128 t + p` of the flattened arrays. -/
abbrev rowAt (t : Fin cfg0.N) (p : Fin 128) : Fin 1024 := ⟨128 * t.val + p.val, by have := point_lt t; omega⟩

/-- The input block at point `t` is rows 128 t … of the flattened input. -/
theorem iblk0_apply (c : Dev nD) (t : Fin cfg0.N) (p : Fin 128) (i : Fin 4096) :
    iblk m c 0 t (ix2 p i) = V m c main_v0 (ix2 (rowAt t p) i) := by
  obtain ⟨e0, e1, -⟩ := idx_facts t
  show V m c main_v0 (((cfg0.win 0).blk t).view.emb (ix2 p i)) = V m c main_v0 (ix2 (rowAt t p) i)
  refine congrArg _ (funext fun a => Fin.ext ?_)
  match a with
  | ⟨0, _⟩ => show win0_0.index t (0 : Fin 2) * 128 + 1 * p.val = 128 * t.val + p.val; omega
  | ⟨1, _⟩ => show win0_0.index t (1 : Fin 2) * 4096 + 1 * i.val = i.val; omega

/-- The first factor stack is read whole at every point. -/
theorem iblk1_apply (c : Dev nD) (t : Fin cfg0.N) (g : Fin 2) (k : Fin 16) (i : Fin 4096) :
    iblk m c 1 t (ix3 g k i) = V m c main_v1 (ix3 g k i) := by
  obtain ⟨-, -, e0, e1, e2, -⟩ := idx_facts t
  show V m c main_v1 (((cfg0.win 1).blk t).view.emb (ix3 g k i)) = V m c main_v1 (ix3 g k i)
  refine congrArg _ (funext fun a => Fin.ext ?_)
  match a with
  | ⟨0, _⟩ => show win0_1.index t (0 : Fin 3) * 2 + 1 * g.val = g.val; omega
  | ⟨1, _⟩ => show win0_1.index t (1 : Fin 3) * 16 + 1 * k.val = k.val; omega
  | ⟨2, _⟩ => show win0_1.index t (2 : Fin 3) * 4096 + 1 * i.val = i.val; omega

/-- The second factor stack is read whole at every point. -/
theorem iblk2_apply (c : Dev nD) (t : Fin cfg0.N) (g : Fin 2) (o : Fin 4096) (k : Fin 16) :
    iblk m c 2 t (ix3 g o k) = V m c main_v2 (ix3 g o k) := by
  obtain ⟨-, -, -, -, -, e0, e1, e2, -⟩ := idx_facts t
  show V m c main_v2 (((cfg0.win 2).blk t).view.emb (ix3 g o k)) = V m c main_v2 (ix3 g o k)
  refine congrArg _ (funext fun a => Fin.ext ?_)
  match a with
  | ⟨0, _⟩ => show win0_2.index t (0 : Fin 3) * 2 + 1 * g.val = g.val; omega
  | ⟨1, _⟩ => show win0_2.index t (1 : Fin 3) * 4096 + 1 * o.val = o.val; omega
  | ⟨2, _⟩ => show win0_2.index t (2 : Fin 3) * 16 + 1 * k.val = k.val; omega

/-- Entry `(p, o)` of the output block at point `t` is entry `(128 t + p, o)` of the output array. -/
theorem emb3 (t : Fin cfg0.N) (p : Fin 128) (o : Fin 12288) :
    ((cfg0.win 3).blk t).view.emb (ix2 p o) = ix2 (rowAt t p) o := by
  obtain ⟨-, -, -, -, -, -, -, -, e0, e1⟩ := idx_facts t
  refine funext fun a => Fin.ext ?_
  match a with
  | ⟨0, _⟩ => show win0_3.index t (0 : Fin 2) * 128 + 1 * p.val = 128 * t.val + p.val; omega
  | ⟨1, _⟩ => show win0_3.index t (1 : Fin 2) * 12288 + 1 * o.val = o.val; omega

/-- What point `t` writes back is block `t` of `arrG` of the arrays the region finds. -/
theorem flushed_eq (c : Dev nD) (t : Fin cfg0.N) :
    (dats m 0 c).flushed 3 t
      = ((cfg0.win 3).blk t).view.read (Elt Ideal) (arrG (V m c main_v0) (V m c main_v1) (V m c main_v2)) := by
  show (cfg0.win 3).cut (grid0.coords t) ((dats m 0 c).after 3 t) = _
  rw [after0_3]
  funext y
  obtain ⟨p, o, rfl⟩ : ∃ (p : Fin 128) (o : Fin 12288), y = ix2 p o := ⟨y 0, y 1, eq_ix2 y⟩
  show out0_3 (iblk m c 0 t) (iblk m c 1 t) (iblk m c 2 t) (ix2 p o)
    = arrG (V m c main_v0) (V m c main_v1) (V m c main_v2) (((cfg0.win 3).blk t).view.emb (ix2 p o))
  rw [emb3, arrG_apply]
  refine (out0_3_apply (iblk m c 0 t) (iblk m c 1 t) (iblk m c 2 t) p o).trans ?_
  simp only [iblk0_apply, iblk1_apply, iblk2_apply]

/-- An index of the output array is in point `t`'s block iff each coordinate is in the block's range. -/
theorem mem_blk3 (t : Fin cfg0.N) (i : S1024x12288.Idx) :
    i ∈ ((cfg0.win 3).blk t).view.set ↔ ∀ a : Fin 2, win0_3.index t a * S128x12288.size a ≤ (i a).val ∧ (i a).val < win0_3.index t a * S128x12288.size a + S128x12288.size a := by
  show i ∈ ((View.whole main_v3).slice (win0_3.rect t)).set ↔ _
  rw [View.set_slice_whole, Rect.mem_set_unit]
  exact Iff.rfl

/-- Every block row is some point's. -/
theorem idx_onto : ∀ q : Fin 8, ∃ t : Fin cfg0.N, win0_3.index t = ![q.val, 0] :=
  (by decide +kernel : ∀ q : Fin 8, ∃ t : Fin grid0.N, win0_3.index t = ![q.val, 0])

/-- The blocks cover the output array: row `r` is in the block of point `r / 128`. -/
theorem cover (i : S1024x12288.Idx) : ∃ t : Fin cfg0.N, (cfg0.win 3).flush t = true ∧ i ∈ ((cfg0.win 3).blk t).view.set := by
  have hi0 : (i 0).val < 1024 := (i 0).isLt
  have hi1 : (i 1).val < 12288 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 12288 ≤ (i 1).val ∧ (i 1).val < win0_3.index t (1 : Fin 2) * 12288 + 12288; omega

/-- The output array after the region. -/
theorem final (c : Dev nD) :
    (dats m 0 c).arrAt 3 cfg0.N = arrG (V m c main_v0) (V m c main_v1) (V m c main_v2) :=
  (dats m 0 c).arrAt_eq_of_cover 3 _ (fun t _ => flushed_eq m c t) cover

end Cert.KernelIdeal.KValue

end
-- ==== Proof.Spec.lean ====
/-
  The function both programs compute.

  The input `x` is a batch of rows of length 4096; `a` holds two stacked 16 × 4096 factors (rows 16 g + k) and `b`
  two stacked 4096 × 16 factors (rows 4096 g + o). The output has three column blocks of width 4096. Block 0 is the
  low-rank product of group 0, block 2 that of group 1, block 1 is zero.

  Two arrangements of the same low-rank product appear. The factored one contracts the row with the first factor,
  then the 16 intermediate values with the second:  Σ_k (Σ_i x_i · a_{k,i}) · b_{o,k}.  The merged one first forms
  the 4096 × 4096 matrix  w_{o,i} = Σ_k b_{o,k} · a_{k,i}  and contracts the row with it:  Σ_i x_i · w_{o,i}.
-/
import Idealize.ShloMosaic.PureOps.Ideal.Laws
import Idealize.ShloMosaic.Lib.ValueIdx

noncomputable section

namespace Cert.Lora

open Idealize.ShloMosaic Idealize.ShloMosaic.ValueIdx

abbrev SX : Shape := ⟨3, ![2, 512, 4096]⟩
abbrev SA : Shape := ⟨2, ![32, 4096]⟩
abbrev SB : Shape := ⟨2, ![8192, 16]⟩
abbrev SO : Shape := ⟨3, ![2, 512, 12288]⟩

/-- Row `16 g + k` of the stacked first factors. -/
abbrev rowA (g : Fin 2) (k : Fin 16) : Fin 32 := ⟨16 * g.val + k.val, by omega⟩
/-- Row `4096 g + o` of the stacked second factors. -/
abbrev rowB (g : Fin 2) (o : Fin 4096) : Fin 8192 := ⟨4096 * g.val + o.val, by omega⟩

/-- The factored arrangement of group `g` at batch row `(n, s)`, column `o` of the group. -/
def factored (x : FVec Ideal SX .f32) (a : FVec Ideal SA .f32) (b : FVec Ideal SB .f32)
    (g : Fin 2) (n : Fin 2) (s : Fin 512) (o : Fin 4096) : EReal :=
  ∑ k : Fin 16, (∑ i : Fin 4096, x (ix3 n s i) * a (ix2 (rowA g k) i)) * b (ix2 (rowB g o) k)

/-- The merged arrangement of group `g` at batch row `(n, s)`, column `o` of the group. -/
def merged (x : FVec Ideal SX .f32) (a : FVec Ideal SA .f32) (b : FVec Ideal SB .f32)
    (g : Fin 2) (n : Fin 2) (s : Fin 512) (o : Fin 4096) : EReal :=
  ∑ i : Fin 4096, x (ix3 n s i) * ∑ k : Fin 16, b (ix2 (rowB g o) k) * a (ix2 (rowA g k) i)

theorem col_lt (j : SO.Idx) : (j 2).val < 12288 := (j 2).isLt

/-- The whole output in the factored arrangement: block 0 is group 0, block 1 is zero, block 2 is group 1. -/
def outFactored (x : FVec Ideal SX .f32) (a : FVec Ideal SA .f32) (b : FVec Ideal SB .f32) : FVec Ideal SO .f32 := fun j =>
  if h0 : (j 2).val < 4096 then factored x a b 0 (j 0) (j 1) ⟨(j 2).val, h0⟩
  else if (j 2).val < 8192 then 0
  else factored x a b 1 (j 0) (j 1) ⟨(j 2).val - 8192, by have := col_lt j; omega⟩

/-- The whole output in the merged arrangement; in block 1 the merged matrix is zero, and the row is contracted
    with zeros. -/
def outMerged (x : FVec Ideal SX .f32) (a : FVec Ideal SA .f32) (b : FVec Ideal SB .f32) : FVec Ideal SO .f32 := fun j =>
  if h0 : (j 2).val < 4096 then merged x a b 0 (j 0) (j 1) ⟨(j 2).val, h0⟩
  else if (j 2).val < 8192 then ∑ i : Fin 4096, x (ix3 (j 0) (j 1) i) * 0
  else merged x a b 1 (j 0) (j 1) ⟨(j 2).val - 8192, by have := col_lt j; omega⟩

/-- Every entry of an array is a real number. -/
def Finite {S : Shape} (v : FVec Ideal S .f32) : Prop := ∀ i, ∃ r : ℝ, v i = (r : EReal)

end Cert.Lora

end
-- ==== Proof.Reshapes.lean ====
/-
  The reshapes of both programs read at an index: a reshape keeps the row-major position.
-/
import proofs.«156483_j58076547776655_1_alg».proof.Proof.Spec
import Idealize.ShloMosaic.Lib.Pipeline.Value

noncomputable section

namespace Cert.Lora

open Idealize.ShloMosaic Idealize.ShloMosaic.ValueIdx

variable {α : Type}

/-- Row `512 n + s` of the flattened batch. -/
abbrev rowX (n : Fin 2) (s : Fin 512) : Fin 1024 := ⟨512 * n.val + s.val, by omega⟩
/-- Column `4096 blk + o` of the fused output, equivalently row `4096 blk + o` of the merged weight. -/
abbrev colO (blk : Fin 3) (o : Fin 4096) : Fin 12288 := ⟨4096 * blk.val + o.val, by omega⟩

theorem reshapeX_apply (x : SX.Idx → α) (h : SX.ShapeCasts ⟨2, ![1024, 4096]⟩) (n : Fin 2) (s : Fin 512) (i : Fin 4096) :
    shapeCast ⟨2, ![1024, 4096]⟩ x h (ix2 (rowX n s) i) = x (ix3 n s i) := by
  refine shapeCast_apply x h _ _ ?_
  rw [Shape.rowMajor_val_three, Shape.rowMajor_val_two]
  show (n.val * 512 + s.val) * 4096 + i.val = (512 * n.val + s.val) * 4096 + i.val
  omega

theorem reshapeA_apply (a : SA.Idx → α) (h : SA.ShapeCasts ⟨3, ![2, 16, 4096]⟩) (g : Fin 2) (k : Fin 16) (i : Fin 4096) :
    shapeCast ⟨3, ![2, 16, 4096]⟩ a h (ix3 g k i) = a (ix2 (rowA g k) i) := by
  refine shapeCast_apply a h _ _ ?_
  rw [Shape.rowMajor_val_three, Shape.rowMajor_val_two]
  show (16 * g.val + k.val) * 4096 + i.val = (g.val * 16 + k.val) * 4096 + i.val
  omega

theorem reshapeB_apply (b : SB.Idx → α) (h : SB.ShapeCasts ⟨3, ![2, 4096, 16]⟩) (g : Fin 2) (o : Fin 4096) (k : Fin 16) :
    shapeCast ⟨3, ![2, 4096, 16]⟩ b h (ix3 g o k) = b (ix2 (rowB g o) k) := by
  refine shapeCast_apply b h _ _ ?_
  rw [Shape.rowMajor_val_three, Shape.rowMajor_val_two]
  show (4096 * g.val + o.val) * 16 + k.val = (g.val * 4096 + o.val) * 16 + k.val
  omega

theorem reshapeW_apply (w : (⟨3, ![3, 4096, 4096]⟩ : Shape).Idx → α) (h : (⟨3, ![3, 4096, 4096]⟩ : Shape).ShapeCasts ⟨2, ![12288, 4096]⟩)
    (blk : Fin 3) (o : Fin 4096) (i : Fin 4096) :
    shapeCast ⟨2, ![12288, 4096]⟩ w h (ix2 (colO blk o) i) = w (ix3 blk o i) := by
  refine shapeCast_apply w h _ _ ?_
  rw [Shape.rowMajor_val_three, Shape.rowMajor_val_two]
  show (blk.val * 4096 + o.val) * 4096 + i.val = (4096 * blk.val + o.val) * 4096 + i.val
  omega

theorem reshapeO_apply (y : (⟨2, ![1024, 12288]⟩ : Shape).Idx → α) (h : (⟨2, ![1024, 12288]⟩ : Shape).ShapeCasts SO)
    (n : Fin 2) (s : Fin 512) (o : Fin 12288) :
    shapeCast SO y h (ix3 n s o) = y (ix2 (rowX n s) o) := by
  refine shapeCast_apply y h _ _ ?_
  rw [Shape.rowMajor_val_three, Shape.rowMajor_val_two]
  show (512 * n.val + s.val) * 12288 + o.val = (n.val * 512 + s.val) * 12288 + o.val
  omega

end Cert.Lora

end
-- ==== Proof.KRun.lean ====
/-
  The kernel program's run read as a value: the result buffer ends at the factored arrangement of the arguments.

  Before the region the input is flattened to 1024 rows and the two factor matrices are reshaped to stacks of two;
  after it the 1024 × 12288 output is reshaped to [2, 512, 12288]. A reshape keeps the row-major position, so row
  `512 n + s` of the output array is batch row `(n, s)` of the result.
-/
import proofs.«156483_j58076547776655_1_alg».proof.Proof.KArr
import proofs.«156483_j58076547776655_1_alg».proof.Proof.Reshapes
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.Pay Cert.Lora
open Idealize.ShloMosaic.Pipeline (Dat Cfg Window)

variable (m : (ℓ : Loc nD τ sig) → Buf (Elt Ideal) ℓ) (ρ : Dev nD → PrngReg)

/-- The flattened input the region finds. -/
theorem V_v0 (c : Dev nD) :
    (V m c main_v0 : FVec Ideal S1024x4096 .f32)
      = shapeCast S1024x4096 (m ((c : Thread nD τ).loc main_arg0)) shapeCasts_S2x512x4096_S1024x4096 := by
  show StableHlo.after hostOps0 (fun b => m (c, b)) (Proc.devRef .tc main_v0) = _
  after_results; rfl

/-- The first factor stack the region finds. -/
theorem V_v1 (c : Dev nD) :
    (V m c main_v1 : FVec Ideal S2x16x4096 .f32)
      = shapeCast S2x16x4096 (m ((c : Thread nD τ).loc main_arg1)) shapeCasts_S32x4096_S2x16x4096 := by
  show StableHlo.after hostOps0 (fun b => m (c, b)) (Proc.devRef .tc main_v1) = _
  after_results; rfl

/-- The second factor stack the region finds. -/
theorem V_v2 (c : Dev nD) :
    (V m c main_v2 : FVec Ideal S2x4096x16 .f32)
      = shapeCast S2x4096x16 (m ((c : Thread nD τ).loc main_arg2)) shapeCasts_S8192x16_S2x4096x16 := by
  show StableHlo.after hostOps0 (fun b => m (c, b)) (Proc.devRef .tc main_v2) = _
  after_results; rfl

/-- The result buffer after the reshape that follows the region. -/
theorem tail_v4 (c : Dev nD) :
    Pipeline.afterTail₀ cfgs (dats m) 0 (V0 m) [hostOps1] c main_v4
      = shapeCast S2x512x12288 ((dats m 0 c).arrAt 3 cfg0.N) shapeCasts_S1024x12288_S2x512x12288 := by
  unfold Pipeline.afterTail₀
  show StableHlo.after hostOps1 _ (Proc.devRef .tc main_v4) = _
  after_results
  exact congrArg (fun X => shapeCast S2x512x12288 X shapeCasts_S1024x12288_S2x512x12288)
    (Pipeline.withArrays_arr spec0 launch0.win.arr_inj c (V0 m c) (fun w => (dats m 0 c).arrAt w cfg0.N) 3)

/-- The reshaped output array is the factored arrangement of the arguments: row `512 n + s` of the array is batch
    row `(n, s)`, and the flattened input and the factor stacks read the arguments at the same positions. -/
theorem value_eq (c : Dev nD) :
    shapeCast S2x512x12288 ((dats m 0 c).arrAt 3 cfg0.N) shapeCasts_S1024x12288_S2x512x12288
      = outFactored (m ((c.tc : Thread nD τ).loc main_arg0)) (m ((c.tc : Thread nD τ).loc main_arg1)) (m ((c.tc : Thread nD τ).loc main_arg2)) := by
  rw [final, V_v0, V_v1, V_v2]
  funext j
  obtain ⟨n, s, o, rfl⟩ : ∃ (n : Fin 2) (s : Fin 512) (o : Fin 12288), j = ix3 n s o := ⟨j 0, j 1, j 2, eq_ix3 j⟩
  rw [reshapeO_apply, arrG_apply]
  show _ = (if h0 : o.val < 4096 then factored _ _ _ 0 n s ⟨o.val, h0⟩
      else if o.val < 8192 then 0
      else factored _ _ _ 1 n s ⟨o.val - 8192, _⟩)
  by_cases h0 : o.val < 4096
  · rw [dif_pos h0, dif_pos h0]
    unfold factored
    simp only [reshapeX_apply, reshapeA_apply, reshapeB_apply]
  · rw [dif_neg h0, dif_neg h0]
    by_cases h1 : o.val < 8192
    · rw [if_pos h1, if_pos h1]
    · rw [if_neg h1, if_neg h1]
      unfold factored
      simp only [reshapeX_apply, reshapeA_apply, reshapeB_apply]

/-- Every weakly fair execution of the kernel program terminates with its result at the factored arrangement of
    the arguments and the arguments unchanged. -/
theorem run : θ_run defs (onTc (τ := τ) (main (F := Ideal))) ⟨m, fun _ => 0, ρ⟩ fun r => ∀ c : Dev nD,
      r.2.mem ((c.tc : Thread nD τ).loc main_v4)
        = outFactored (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans ((tail_v4 m c).trans (value_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RRun.lean ====
/-
  The reference program's run: its operations in order, and the value its result buffer ends at as one term of the
  three argument arrays (the two factor stacks reshaped and multiplied per group, scattered into blocks 0 and 2 of a
  zero three-block weight, the weight flattened, the input rows contracted with it).
-/
import proofs.«156483_j58076547776655_1_alg».proof.ReferenceIdeal
import proofs.«156483_j58076547776655_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ nullary main_c (fun i => lit0 (S2.rowMajor i)),
    reshape main_arg1 main_v0 rfl shapeCasts_S32x4096_S2x16x4096,
    reshape main_arg2 main_v1 rfl shapeCasts_S8192x16_S2x4096x16,
    binary main_v1 main_v0 main_v2 ((fun l r => Host.dotGeneral dot_S2x4096x16_S2x16x4096_S2x4096x4096_2_1_1_2_0_0 none l r) : (⟨S2x4096x16, .f32⟩ : BufTy).Contents (Elt F) → (⟨S2x16x4096, .f32⟩ : BufTy).Contents (Elt F) → (⟨S2x4096x4096, .f32⟩ : BufTy).Contents (Elt F)),
    nullary main_cst (constant S_ .f32 0x00000000#32),
    unary main_cst main_v3 (broadcastInDim S3x4096x4096 ![] bcast_S_S3x4096x4096 : (⟨S_, .f32⟩ : BufTy).Contents (Elt F) → (⟨S3x4096x4096, .f32⟩ : BufTy).Contents (Elt F)),
    nullary main_c_0 (constantI S_ 32 0#32),
    unary main_c_0 main_v4 (broadcastInDim S2 ![] bcast_S_S2 : (⟨S_, .i32⟩ : BufTy).Contents (Elt F) → (⟨S2, .i32⟩ : BufTy).Contents (Elt F)),
    binary main_c main_v4 main_v5 (cmpi .slt : (⟨S2, .i32⟩ : BufTy).Contents (Elt F) → (⟨S2, .i32⟩ : BufTy).Contents (Elt F) → (⟨S2, .i1⟩ : BufTy).Contents (Elt F)),
    nullary main_c_1 (constantI S_ 32 3#32),
    unary main_c_1 main_v6 (broadcastInDim S2 ![] bcast_S_S2 : (⟨S_, .i32⟩ : BufTy).Contents (Elt F) → (⟨S2, .i32⟩ : BufTy).Contents (Elt F)),
    binary main_c main_v6 main_v7 (addi : (⟨S2, .i32⟩ : BufTy).Contents (Elt F) → (⟨S2, .i32⟩ : BufTy).Contents (Elt F) → (⟨S2, .i32⟩ : BufTy).Contents (Elt F)),
    ternary main_v5 main_v7 main_c main_v8 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v8 main_v9 (broadcastInDim S2x1 ![0] bcast_S2_S2x1_0 : (⟨S2, .i32⟩ : BufTy).Contents (Elt F) → (⟨S2x1, .i32⟩ : BufTy).Contents (Elt F)),
    ternary main_v3 main_v9 main_v2 main_v10 ((fun x i u => Host.scatter scatter_S3x4096x4096_S2x1_S2x4096x4096_12_0_0_1 (fun _ b => b) x i u) : (⟨S3x4096x4096, .f32⟩ : BufTy).Contents (Elt F) → (⟨S2x1, .i32⟩ : BufTy).Contents (Elt F) → (⟨S2x4096x4096, .f32⟩ : BufTy).Contents (Elt F) → (⟨S3x4096x4096, .f32⟩ : BufTy).Contents (Elt F)),
    reshape main_v10 main_v11 rfl shapeCasts_S3x4096x4096_S12288x4096,
    binary main_arg0 main_v11 main_v12 ((fun l r => Host.dotGeneral dot_S2x512x4096_S12288x4096_S2x512x12288_2_1_01_0_n_n none l r) : (⟨S2x512x4096, .f32⟩ : BufTy).Contents (Elt F) → (⟨S12288x4096, .f32⟩ : BufTy).Contents (Elt F) → (⟨S2x512x12288, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., reshape_bufs_sub .., binary_bufs_sub ..⟩

/-- The block numbers the two update slabs go to, as the program computes them: the literal `[0, 2]`, with 3 added
    where an entry is negative (none is), as a column. -/
def idxTerm : IVec S2x1 32 :=
  broadcastInDim S2x1 ![0] bcast_S2_S2x1_0
    (select (cmpi .slt (fun i => lit0 (S2.rowMajor i)) (broadcastInDim S2 ![] bcast_S_S2 (constantI S_ 32 0#32)))
      (addi (fun i => lit0 (S2.rowMajor i)) (broadcastInDim S2 ![] bcast_S_S2 (constantI S_ 32 3#32)))
      (fun i => lit0 (S2.rowMajor i)))

/-- The three-block weight: zeros, with the per-group products of the reshaped factor stacks set at the blocks
    `idxTerm` names. -/
def weightTerm (a : FVec F S32x4096 .f32) (b : FVec F S8192x16 .f32) : FVec F S3x4096x4096 .f32 :=
  Host.scatter scatter_S3x4096x4096_S2x1_S2x4096x4096_12_0_0_1 (fun _ b => b)
    (broadcastInDim S3x4096x4096 ![] bcast_S_S3x4096x4096 (constant S_ .f32 0x00000000#32)) idxTerm
    (Host.dotGeneral dot_S2x4096x16_S2x16x4096_S2x4096x4096_2_1_1_2_0_0 none
      (shapeCast S2x4096x16 b shapeCasts_S8192x16_S2x4096x16) (shapeCast S2x16x4096 a shapeCasts_S32x4096_S2x16x4096))

/-- The result: the input rows contracted with the flattened weight. -/
def refTerm (x : FVec F S2x512x4096 .f32) (a : FVec F S32x4096 .f32) (b : FVec F S8192x16 .f32) : FVec F S2x512x12288 .f32 :=
  Host.dotGeneral dot_S2x512x4096_S12288x4096_S2x512x12288_2_1_01_0_n_n none x
    (shapeCast S12288x4096 (weightTerm a b) shapeCasts_S3x4096x4096_S12288x4096)

/-- Every weakly fair execution of the reference terminates with its result at `refTerm` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (by unfold refTerm weightTerm idxTerm; after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HandRun

end
-- ==== Proof.RDots.lean ====
/-
  The reference's two contractions read at an entry, at the ideal values.
-/
import proofs.«156483_j58076547776655_1_alg».proof.ReferenceIdeal
import proofs.«156483_j58076547776655_1_alg».proof.Proof.Gen.ReferenceIdeal
import Idealize.ShloMosaic.PureOps.Ideal.Laws
import Idealize.ShloMosaic.Lib.ValueIdx

noncomputable section

namespace Cert.ReferenceIdeal.Dots

open Idealize.ShloMosaic Idealize.ShloMosaic.ValueIdx Cert.ReferenceIdeal Cert.ReferenceIdeal.Gen

/-- The left operand of the batched product at output entry (g, o, i) and contraction position k is read at (g, o, k):
    axis 0 is the batch axis, axis 1 the free axis, axis 2 the contracted one. -/
private theorem dotBatch_lhsIdx (g : Fin 2) (o i : Fin 4096) (k : Fin 16) :
    dot_S2x4096x16_S2x16x4096_S2x4096x4096_2_1_1_2_0_0.lhsIdx (ix3 g o i)
      ((contrEquiv1 dot_S2x4096x16_S2x16x4096_S2x4096x4096_2_1_1_2_0_0 16 rfl rfl).symm k) = ix3 g o k :=
  funext fun a => Fin.ext (by
    match a with
    | ⟨0, _⟩ => rfl
    | ⟨1, _⟩ => rfl
    | ⟨2, _⟩ => rfl)

/-- The right operand of the batched product at output entry (g, o, i) and contraction position k is read at (g, k, i):
    axis 0 is the batch axis, axis 1 the contracted one, axis 2 the free axis. -/
private theorem dotBatch_rhsIdx (g : Fin 2) (o i : Fin 4096) (k : Fin 16) :
    dot_S2x4096x16_S2x16x4096_S2x4096x4096_2_1_1_2_0_0.rhsIdx (ix3 g o i)
      ((contrEquiv1 dot_S2x4096x16_S2x16x4096_S2x4096x4096_2_1_1_2_0_0 16 rfl rfl).symm k) = ix3 g k i :=
  funext fun a => Fin.ext (by
    match a with
    | ⟨0, _⟩ => rfl
    | ⟨1, _⟩ => rfl
    | ⟨2, _⟩ => rfl)

/-- The batched product of the two stacks of factors: per group, the 4096 × 16 factor times the 16 × 4096 factor. -/
theorem dotBatch_apply (l : FVec Ideal S2x4096x16 .f32) (r : FVec Ideal S2x16x4096 .f32) (g : Fin 2) (o : Fin 4096) (i : Fin 4096) :
    Host.dotGeneral dot_S2x4096x16_S2x16x4096_S2x4096x4096_2_1_1_2_0_0 none l r (ix3 g o i)
      = ∑ k : Fin 16, l (ix3 g o k) * r (ix3 g k i) := by
  simp only [Host.dotGeneral]
  rw [Ideal.dotGeneral_apply]
  -- the contraction shape has one axis of length 16: sum over its coordinate
  rw [← Equiv.sum_comp (contrEquiv1 dot_S2x4096x16_S2x16x4096_S2x4096x4096_2_1_1_2_0_0 16 rfl rfl).symm]
  refine Finset.sum_congr rfl fun k _ => ?_
  rw [dotBatch_lhsIdx, dotBatch_rhsIdx]

/-- The input at output entry (n, s, o) and contraction position i is read at (n, s, i): axes 0 and 1 are free,
    axis 2 is contracted. -/
private theorem dotOut_lhsIdx (n : Fin 2) (s : Fin 512) (o : Fin 12288) (i : Fin 4096) :
    dot_S2x512x4096_S12288x4096_S2x512x12288_2_1_01_0_n_n.lhsIdx (ix3 n s o)
      ((contrEquiv1 dot_S2x512x4096_S12288x4096_S2x512x12288_2_1_01_0_n_n 4096 rfl rfl).symm i) = ix3 n s i :=
  funext fun a => Fin.ext (by
    match a with
    | ⟨0, _⟩ => rfl
    | ⟨1, _⟩ => rfl
    | ⟨2, _⟩ => rfl)

/-- The merged weight at output entry (n, s, o) and contraction position i is read at (o, i): axis 0 is free,
    axis 1 is contracted. -/
private theorem dotOut_rhsIdx (n : Fin 2) (s : Fin 512) (o : Fin 12288) (i : Fin 4096) :
    dot_S2x512x4096_S12288x4096_S2x512x12288_2_1_01_0_n_n.rhsIdx (ix3 n s o)
      ((contrEquiv1 dot_S2x512x4096_S12288x4096_S2x512x12288_2_1_01_0_n_n 4096 rfl rfl).symm i) = ix2 o i :=
  funext fun a => Fin.ext (by
    match a with
    | ⟨0, _⟩ => rfl
    | ⟨1, _⟩ => rfl)

/-- The input rows against the merged weight, contracting the shared axis of length 4096. -/
theorem dotOut_apply (x : FVec Ideal S2x512x4096 .f32) (wt : FVec Ideal S12288x4096 .f32) (n : Fin 2) (s : Fin 512) (o : Fin 12288) :
    Host.dotGeneral dot_S2x512x4096_S12288x4096_S2x512x12288_2_1_01_0_n_n none x wt (ix3 n s o)
      = ∑ i : Fin 4096, x (ix3 n s i) * wt (ix2 o i) := by
  simp only [Host.dotGeneral]
  rw [Ideal.dotGeneral_apply]
  -- the contraction shape has one axis of length 4096: sum over its coordinate
  rw [← Equiv.sum_comp (contrEquiv1 dot_S2x512x4096_S12288x4096_S2x512x12288_2_1_01_0_n_n 4096 rfl rfl).symm]
  refine Finset.sum_congr rfl fun i _ => ?_
  rw [dotOut_lhsIdx, dotOut_rhsIdx]

end Cert.ReferenceIdeal.Dots

end
-- ==== Proof.LibScatter.lean ====
/-
  A scatter whose body returns the update ("set"), read at an element.

  The scatter is a left fold over the update indices in row-major order; each step overwrites the element its update
  lands on. When no two updates land on one element, the element an update lands on ends holding that update, and an
  element no update lands on keeps the operand's value.
-/
import Idealize.ShloMosaic.PureOps
import Idealize.ShloMosaic.Lib.ValueIdx

noncomputable section

namespace Cert.LibScatter

open Idealize.ShloMosaic

variable {s si u : Shape} {w : Nat} {α : Type}

/-- A left fold of steps none of which changes the value at `i` keeps the value at `i`. -/
private theorem foldl_keep {β ι : Type} (F : (β → α) → ι → (β → α)) (i : β)
    (l : List ι) (r : β → α) (h : ∀ n ∈ l, ∀ r' : β → α, F r' n i = r' i) : l.foldl F r i = r i := by
  induction l generalizing r with
  | nil => rfl
  | cons n l ih =>
    rw [List.foldl_cons, ih _ (fun m hm => h m (List.mem_cons_of_mem _ hm))]
    exact h n List.mem_cons_self r

/-- An element no update lands on keeps the operand's value. -/
theorem scatter_set_miss (d : ScatterDims s si u) (x : s.Idx → α) (idx : IVec si w) (upd : u.Idx → α) (i : s.Idx)
    (h : ∀ j, d.resultIdx? j idx ≠ some i) : Host.scatter d (fun _ b => b) x idx upd i = x i := by
  unfold Host.scatter
  apply foldl_keep
  intro n _ r'
  dsimp only
  cases hr : d.resultIdx? (u.rowMajor.symm n) idx with
  | none => rfl
  | some i0 =>
    -- the step writes at `i0 ≠ i`
    have hne : i ≠ i0 := fun e => h _ (e ▸ hr)
    exact if_neg hne

/-- The element update `j` lands on holds that update, when no other update lands there. -/
theorem scatter_set_hit (d : ScatterDims s si u) (x : s.Idx → α) (idx : IVec si w) (upd : u.Idx → α)
    (hinj : ∀ j j' i, d.resultIdx? j idx = some i → d.resultIdx? j' idx = some i → j = j')
    (j : u.Idx) (i : s.Idx) (hj : d.resultIdx? j idx = some i) : Host.scatter d (fun _ b => b) x idx upd i = upd j := by
  unfold Host.scatter
  -- split the update indices at `j`'s row-major position: before, at, after
  obtain ⟨l₁, l₂, hl⟩ := List.append_of_mem (List.mem_finRange (u.rowMajor j))
  have hnd : (List.finRange u.numel).Nodup := List.nodup_finRange _
  rw [hl] at hnd
  have hnot : u.rowMajor j ∉ l₂ := (List.nodup_cons.1 hnd.of_append_right).1
  have e : u.rowMajor.symm (u.rowMajor j) = j := Equiv.symm_apply_apply _ _
  rw [hl, List.foldl_append, List.foldl_cons, foldl_keep _ i l₂]
  · -- the step at `j` writes `upd j` at `i`
    dsimp only
    rw [e, hj]
    exact if_pos rfl
  · -- a later step landing on `i` would be the step at `j` again
    intro n hn r'
    dsimp only
    cases hr : d.resultIdx? (u.rowMajor.symm n) idx with
    | none => rfl
    | some i0 =>
      have hne : i ≠ i0 := by
        intro e'
        subst e'
        have hjn : u.rowMajor.symm n = j := hinj _ _ _ hr hj
        have : n = u.rowMajor j := by rw [← hjn, Equiv.apply_symm_apply]
        exact hnot (this ▸ hn)
      exact if_neg hne

end Cert.LibScatter

end
-- ==== Proof.RScatter.lean ====
/-
  The reference's scatter read at an element: the two update slabs go to blocks 0 and 2 of the three-block weight,
  block 1 keeps the operand.
-/
import proofs.«156483_j58076547776655_1_alg».proof.ReferenceIdeal
import proofs.«156483_j58076547776655_1_alg».proof.Proof.Gen.ReferenceIdeal
import proofs.«156483_j58076547776655_1_alg».proof.Proof.LibScatter

noncomputable section

namespace Cert.ReferenceIdeal.Scat

open Idealize.ShloMosaic Idealize.ShloMosaic.ValueIdx Cert.ReferenceIdeal Cert.ReferenceIdeal.Gen

/-- The scatter's dimension record: window axes 1 and 2 of the updates, operand axis 0 inserted and indexed. -/
private abbrev D : ScatterDims S3x4096x4096 S2x1 S2x4096x4096 := scatter_S3x4096x4096_S2x1_S2x4096x4096_12_0_0_1

/-! ## The window coordinate and the start, axis by axis

The operand's kept axes are 1 and 2 (axis 0 is inserted), and the window axes of the updates are 1 and 2 in that
order: the window coordinate is 0 on axis 0 and the update's own coordinate on axes 1 and 2. Only axis 0 is named by
the index map: the start is the index column's entry for the update's slab on axis 0, and 0 on axes 1 and 2. -/

private theorem window_0 (j : S2x4096x4096.Idx) : D.window j (0 : Fin 3) = 0 := by
  unfold ScatterDims.window
  rw [dif_neg (by decide)]

private theorem window_1 (j : S2x4096x4096.Idx) : D.window j (1 : Fin 3) = (j 1).val := by
  unfold ScatterDims.window
  rw [dif_pos (by decide)]
  rfl

private theorem window_2 (j : S2x4096x4096.Idx) : D.window j (2 : Fin 3) = (j 2).val := by
  unfold ScatterDims.window
  rw [dif_pos (by decide)]
  rfl

private theorem start_1 (j : S2x4096x4096.Idx) (idx : IVec S2x1 32) : D.start j idx (1 : Fin 3) = 0 := by
  unfold ScatterDims.start
  rw [dif_neg (by decide)]

private theorem start_2 (j : S2x4096x4096.Idx) (idx : IVec S2x1 32) : D.start j idx (2 : Fin 3) = 0 := by
  unfold ScatterDims.start
  rw [dif_neg (by decide)]

/-- On axis 0 the start is read at row `j 0` of the index column (its only column, 0). -/
private theorem start_0 (j : S2x4096x4096.Idx) (idx : IVec S2x1 32) :
    D.start j idx (0 : Fin 3) = (idx (ix2 (j 0) 0)).toInt := by
  unfold ScatterDims.start
  rw [dif_pos (by decide)]
  congr 2
  funext b
  match b with
  | ⟨0, _⟩ => rfl
  | ⟨1, _⟩ => rfl

/-- The index column holds 0 and 2: slab `g` starts at block `2 * g`. -/
private theorem start_val (j : S2x4096x4096.Idx) (idx : IVec S2x1 32)
    (h0 : idx (ix2 0 0) = 0#32) (h1 : idx (ix2 1 0) = 2#32) :
    D.start j idx (0 : Fin 3) = ((2 * (j 0).val : Nat) : Int) := by
  rw [start_0]
  obtain ⟨g, hg⟩ : ∃ g : Fin 2, j 0 = g := ⟨_, rfl⟩
  rw [hg]
  match g with
  | ⟨0, _⟩ => rw [show (⟨0, by decide⟩ : Fin 2) = 0 from rfl, h0]; decide
  | ⟨1, _⟩ => rw [show (⟨1, by decide⟩ : Fin 2) = 1 from rfl, h1]; decide

private theorem land_lt (g : Fin 2) : 2 * g.val < 3 := by omega

/-! ## Where an update lands -/

/-- Update `(g, o, i)` lands on operand element `(2 * g, o, i)`, which is always inside the operand. -/
private theorem resultIdx_eq (j : S2x4096x4096.Idx) (idx : IVec S2x1 32)
    (h0 : idx (ix2 0 0) = 0#32) (h1 : idx (ix2 1 0) = 2#32) :
    D.resultIdx? j idx = some (ix3 ⟨2 * (j 0).val, land_lt (j 0)⟩ (j 1) (j 2)) := by
  have hs := start_val j idx h0 h1
  have hg : (j 0).val < 2 := (j 0).isLt
  have ho : (j 1).val < 4096 := (j 1).isLt
  have hi : (j 2).val < 4096 := (j 2).isLt
  unfold ScatterDims.resultIdx?
  rw [dif_pos]
  · congr 1
    funext a
    match a with
    | ⟨0, _⟩ =>
      apply Fin.ext
      show (D.start j idx (0 : Fin 3) + D.window j (0 : Fin 3)).toNat = 2 * (j 0).val
      rw [hs, window_0]; omega
    | ⟨1, _⟩ =>
      apply Fin.ext
      show (D.start j idx (1 : Fin 3) + D.window j (1 : Fin 3)).toNat = (j 1).val
      rw [start_1, window_1]; omega
    | ⟨2, _⟩ =>
      apply Fin.ext
      show (D.start j idx (2 : Fin 3) + D.window j (2 : Fin 3)).toNat = (j 2).val
      rw [start_2, window_2]; omega
  · intro a
    match a with
    | ⟨0, _⟩ =>
      show 0 ≤ D.start j idx (0 : Fin 3) + D.window j (0 : Fin 3) ∧ D.start j idx (0 : Fin 3) + D.window j (0 : Fin 3) < (3 : Nat)
      rw [hs, window_0]; omega
    | ⟨1, _⟩ =>
      show 0 ≤ D.start j idx (1 : Fin 3) + D.window j (1 : Fin 3) ∧ D.start j idx (1 : Fin 3) + D.window j (1 : Fin 3) < (4096 : Nat)
      rw [start_1, window_1]; omega
    | ⟨2, _⟩ =>
      show 0 ≤ D.start j idx (2 : Fin 3) + D.window j (2 : Fin 3) ∧ D.start j idx (2 : Fin 3) + D.window j (2 : Fin 3) < (4096 : Nat)
      rw [start_2, window_2]; omega

/-- No two updates land on one element: `(2 * g, o, i)` determines `(g, o, i)`. -/
private theorem land_inj (idx : IVec S2x1 32) (h0 : idx (ix2 0 0) = 0#32) (h1 : idx (ix2 1 0) = 2#32)
    (j j' : S2x4096x4096.Idx) (i : S3x4096x4096.Idx)
    (hj : D.resultIdx? j idx = some i) (hj' : D.resultIdx? j' idx = some i) : j = j' := by
  rw [resultIdx_eq j idx h0 h1] at hj
  rw [resultIdx_eq j' idx h0 h1] at hj'
  have h := Option.some.inj (hj.trans hj'.symm)
  have e0 : (⟨2 * (j 0).val, land_lt (j 0)⟩ : Fin 3) = ⟨2 * (j' 0).val, land_lt (j' 0)⟩ := congrFun h (0 : Fin 3)
  have e1 : j 1 = j' 1 := congrFun h (1 : Fin 3)
  have e2 : j 2 = j' 2 := congrFun h (2 : Fin 3)
  have e0' : 2 * (j 0).val = 2 * (j' 0).val := congrArg Fin.val e0
  funext a
  match a with
  | ⟨0, _⟩ => exact Fin.ext (show (j 0).val = (j' 0).val by omega)
  | ⟨1, _⟩ => exact e1
  | ⟨2, _⟩ => exact e2

/-! ## The scatter at an element

Block 0 is where slab 0 lands and block 2 where slab 1 lands; no update lands on block 1, since `2 * g` is never 1. -/

theorem scatter_apply (x : FVec Ideal S3x4096x4096 .f32) (idx : IVec S2x1 32)
    (h0 : idx (ix2 0 0) = 0#32) (h1 : idx (ix2 1 0) = 2#32) (upd : FVec Ideal S2x4096x4096 .f32)
    (blk : Fin 3) (o : Fin 4096) (i : Fin 4096) :
    Host.scatter scatter_S3x4096x4096_S2x1_S2x4096x4096_12_0_0_1 (fun _ b => b) x idx upd (ix3 blk o i)
      = if blk.val = 0 then upd (ix3 0 o i) else if blk.val = 2 then upd (ix3 1 o i) else x (ix3 blk o i) := by
  match blk with
  | ⟨0, _⟩ =>
    rw [if_pos rfl]
    exact LibScatter.scatter_set_hit D x idx upd (land_inj idx h0 h1) (ix3 0 o i) _ (resultIdx_eq (ix3 0 o i) idx h0 h1)
  | ⟨1, _⟩ =>
    rw [if_neg (show ¬ (1 : Nat) = 0 by decide), if_neg (show ¬ (1 : Nat) = 2 by decide)]
    refine LibScatter.scatter_set_miss D x idx upd _ ?_
    intro j hj
    rw [resultIdx_eq j idx h0 h1] at hj
    have e0 : (⟨2 * (j 0).val, land_lt (j 0)⟩ : Fin 3) = ⟨1, by decide⟩ := congrFun (Option.some.inj hj) (0 : Fin 3)
    have e0' : 2 * (j 0).val = 1 := congrArg Fin.val e0
    omega
  | ⟨2, _⟩ =>
    rw [if_neg (show ¬ (2 : Nat) = 0 by decide), if_pos rfl]
    exact LibScatter.scatter_set_hit D x idx upd (land_inj idx h0 h1) (ix3 1 o i) _ (resultIdx_eq (ix3 1 o i) idx h0 h1)

end Cert.ReferenceIdeal.Scat

end
-- ==== Proof.RRead.lean ====
/-
  The reference's result is the merged arrangement.

  The per-group products of the reshaped factor stacks are  w_g(o, i) = Σ_k b(4096 g + o, k) · a(16 g + k, i).  The
  scatter sets them at blocks 0 and 2 of a zero three-block weight, the flattening puts block `blk`, row `o` at row
  `4096 blk + o`, and the last contraction pairs the input row with that row of the weight: columns below 4096 see
  group 0, columns from 8192 group 1, the columns between a row of zeros.
-/
import proofs.«156483_j58076547776655_1_alg».proof.Proof.RRun
import proofs.«156483_j58076547776655_1_alg».proof.Proof.RDots
import proofs.«156483_j58076547776655_1_alg».proof.Proof.RScatter
import proofs.«156483_j58076547776655_1_alg».proof.Proof.Reshapes

noncomputable section

namespace Cert.ReferenceIdeal.RefValue

open Idealize.ShloMosaic Idealize.ShloMosaic.ValueIdx Cert.ReferenceIdeal Cert.ReferenceIdeal.Gen Cert.ReferenceIdeal.HandRun Cert.Lora

/-- The block numbers the program computes are 0 and 2. -/
theorem idx0 : idxTerm (ix2 0 0) = 0#32 := rfl
theorem idx1 : idxTerm (ix2 1 0) = 2#32 := rfl

/-- The zero weight the scatter starts from. -/
theorem zeros_apply (j : S3x4096x4096.Idx) :
    (broadcastInDim S3x4096x4096 ![] bcast_S_S3x4096x4096 (constant (F := Ideal) S_ .f32 0x00000000#32) : FVec Ideal S3x4096x4096 .f32) j = 0 := by
  simp only [broadcastInDim, constant, Ideal.ofBits_def, Ideal.ofBits_zero_f32]

/-- The three-block weight at block `blk`, row `o`, column `i`. -/
theorem weight_apply (a : FVec Ideal SA .f32) (b : FVec Ideal SB .f32) (blk : Fin 3) (o i : Fin 4096) :
    weightTerm (F := Ideal) a b (ix3 blk o i)
      = if blk.val = 0 then ∑ k : Fin 16, b (ix2 (rowB 0 o) k) * a (ix2 (rowA 0 k) i)
        else if blk.val = 2 then ∑ k : Fin 16, b (ix2 (rowB 1 o) k) * a (ix2 (rowA 1 k) i) else 0 := by
  unfold weightTerm
  rw [Scat.scatter_apply _ _ idx0 idx1, zeros_apply, Dots.dotBatch_apply, Dots.dotBatch_apply]
  simp only [reshapeA_apply, reshapeB_apply]

/-- The flattened weight at row `4096 blk + o`. -/
theorem flat_apply (a : FVec Ideal SA .f32) (b : FVec Ideal SB .f32) (blk : Fin 3) (o i : Fin 4096) :
    shapeCast S12288x4096 (weightTerm (F := Ideal) a b) shapeCasts_S3x4096x4096_S12288x4096 (ix2 (colO blk o) i)
      = if blk.val = 0 then ∑ k : Fin 16, b (ix2 (rowB 0 o) k) * a (ix2 (rowA 0 k) i)
        else if blk.val = 2 then ∑ k : Fin 16, b (ix2 (rowB 1 o) k) * a (ix2 (rowA 1 k) i) else 0 := by
  rw [reshapeW_apply, weight_apply]

theorem refTerm_eq (x : FVec Ideal SX .f32) (a : FVec Ideal SA .f32) (b : FVec Ideal SB .f32) :
    refTerm (F := Ideal) x a b = outMerged x a b := by
  funext j
  obtain ⟨n, s, o, rfl⟩ : ∃ (n : Fin 2) (s : Fin 512) (o : Fin 12288), j = ix3 n s o := ⟨j 0, j 1, j 2, eq_ix3 j⟩
  unfold refTerm
  rw [Dots.dotOut_apply]
  show _ = (if h0 : o.val < 4096 then merged x a b 0 n s ⟨o.val, h0⟩
      else if o.val < 8192 then ∑ i : Fin 4096, x (ix3 n s i) * 0
      else merged x a b 1 n s ⟨o.val - 8192, _⟩)
  by_cases h0 : o.val < 4096
  · rw [dif_pos h0]
    have ho : colO 0 ⟨o.val, h0⟩ = o := Fin.ext (by simp)
    refine Finset.sum_congr rfl fun i _ => ?_
    have := flat_apply a b 0 ⟨o.val, h0⟩ i
    rw [ho] at this
    rw [this]; rfl
  · rw [dif_neg h0]
    by_cases h1 : o.val < 8192
    · rw [if_pos h1]
      have ho : colO 1 ⟨o.val - 4096, by omega⟩ = o := Fin.ext (by simp; omega)
      refine Finset.sum_congr rfl fun i _ => ?_
      have := flat_apply a b 1 ⟨o.val - 4096, by omega⟩ i
      rw [ho] at this
      rw [this]; rfl
    · rw [if_neg h1]
      have h2 : o.val - 8192 < 4096 := by have := o.isLt; omega
      have ho : colO 2 ⟨o.val - 8192, h2⟩ = o := Fin.ext (by simp; omega)
      refine Finset.sum_congr rfl fun i _ => ?_
      have := flat_apply a b 2 ⟨o.val - 8192, h2⟩ i
      rw [ho] at this
      rw [this]; rfl

end Cert.ReferenceIdeal.RefValue

end
-- ==== Proof.Law.lean ====
/-
  The merged and the factored arrangement agree on finite inputs.
-/
import proofs.«156483_j58076547776655_1_alg».proof.Proof.Spec

noncomputable section

namespace Cert.Lora

open Idealize.ShloMosaic Idealize.ShloMosaic.ValueIdx

/-- The coercion from the reals to the extended reals commutes with finite sums. -/
private theorem coe_sum_real {ι : Type} (t : Finset ι) (f : ι → ℝ) :
    ((∑ i ∈ t, f i : ℝ) : EReal) = ∑ i ∈ t, (f i : EReal) := by
  classical
  induction t using Finset.induction_on with
  | empty => simp
  | insert c t hc ih => rw [Finset.sum_insert hc, Finset.sum_insert hc, EReal.coe_add, ih]

theorem merged_eq_factored (x : FVec Ideal SX .f32) (a : FVec Ideal SA .f32) (b : FVec Ideal SB .f32)
    (hx : Finite x) (ha : Finite a) (hb : Finite b) (g : Fin 2) (n : Fin 2) (s : Fin 512) (o : Fin 4096) :
    merged x a b g n s o = factored x a b g n s o := by
  -- every entry is the coercion of a real number
  choose fx hfx using hx
  choose fa hfa using ha
  choose fb hfb using hb
  unfold merged factored
  simp only [hfx, hfa, hfb]
  -- both sides are coercions of real sums
  simp only [← EReal.coe_mul, ← coe_sum_real]
  congr 1
  -- over the reals: distribute, exchange the two sums, and compare term by term
  simp only [Finset.mul_sum, Finset.sum_mul]
  rw [Finset.sum_comm]
  refine Finset.sum_congr rfl fun k _ => Finset.sum_congr rfl fun i _ => ?_
  ring

theorem outMerged_eq_outFactored (x : FVec Ideal SX .f32) (a : FVec Ideal SA .f32) (b : FVec Ideal SB .f32)
    (hx : Finite x) (ha : Finite a) (hb : Finite b) : outMerged x a b = outFactored x a b := by
  funext j
  unfold outMerged outFactored
  by_cases h0 : (j 2).val < 4096
  · -- block 0: group 0
    simp only [dif_pos h0]
    exact merged_eq_factored x a b hx ha hb _ _ _ _
  · simp only [dif_neg h0]
    by_cases h1 : (j 2).val < 8192
    · -- block 1: a sum of products with zero
      simp only [if_pos h1, mul_zero, Finset.sum_const_zero]
    · -- block 2: group 1
      simp only [if_neg h1]
      exact merged_eq_factored x a b hx ha hb _ _ _ _

end Cert.Lora

end
-- ==== Proof.Finite.lean ====
/-
  The precondition says every entry of the three inputs is a real number.
-/
import proofs.«156483_j58076547776655_1_alg».proof.Pre_finite_inputs
import proofs.«156483_j58076547776655_1_alg».proof.Proof.Gen.Pre_finite_inputs
import proofs.«156483_j58076547776655_1_alg».proof.Proof.Spec
import Idealize.ShloMosaic.Lib.ReduceAll

noncomputable section

namespace Cert.Lora

open Idealize.ShloMosaic Idealize.ShloMosaic.ValueIdx

/-- The word 0x7F800000 reads as +∞. -/
private theorem inf_word : FloatOps.ofBits (F := Ideal) .f32 0x7F800000#32 = (⊤ : EReal) := by
  show Ideal.ofBits .f32 0x7F800000#32 = ⊤
  simp [Ideal.ofBits, Ideal.ieee]

/-- An extended real whose absolute value max v (-v) is below +∞ is a real number: at ⊤ the maximum is ⊤, at ⊥ it is
    -⊥ = ⊤, and neither is below ⊤. -/
private theorem real_of_abs_lt (v : EReal)
    (h : FloatOps.cmpf (F := Ideal) (φ := .f32) .olt (FloatOps.hostAbsf (F := Ideal) (φ := .f32) v)
      (FloatOps.ofBits (F := Ideal) .f32 0x7F800000#32) = 1#1) : ∃ r : ℝ, v = (r : EReal) := by
  rw [inf_word] at h
  change BitVec.ofBool (decide (max v (-v) < (⊤ : EReal))) = 1#1 at h
  induction v using EReal.rec with
  | bot => simp at h
  | coe r => exact ⟨r, rfl⟩
  | top => simp at h

/-- The shape of rank 0 has one index. -/
private instance : Subsingleton Cert.Pre_finite_inputs.S_.Idx := ⟨fun a b => funext fun d => d.elim0⟩

/-- One conjunct of the precondition: if |v i| < +∞ holds at every index i (the conjunction over all indices is 1),
    then every entry of v is a real. -/
private theorem finite_of_all {S : Shape} (v : FVec Ideal S .f32) {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf CmpFPredicate.olt (Host.absf v)
            (broadcastInDim S ![] hb (constant (F := Ideal) Cert.Pre_finite_inputs.S_ FTy.f32 0x7F800000#32)))
          (constantI Cert.Pre_finite_inputs.S_ 1 1#1) hr hu ix0 = 1#1) : Finite v := by
  intro i
  have hi := Host.reduce_andi_all _ _ hr hu ix0 e i
  exact real_of_abs_lt (v i) hi

theorem finite_of_pre (x : FVec Ideal SX .f32) (a : FVec Ideal SA .f32) (b : FVec Ideal SB .f32)
    (h : Cert.Pre_finite_inputs.fn (F := Ideal) x a b = fun _ => 1#1) : Finite x ∧ Finite a ∧ Finite b := by
  have h0 := congrFun h ValueIdx.ix0
  dsimp only [Cert.Pre_finite_inputs.fn] at h0
  -- the precondition is (all_x ∧ all_a) ∧ all_b
  obtain ⟨hxa, hb⟩ := IntOp.andi_eq_one.1 h0
  obtain ⟨hx, ha⟩ := IntOp.andi_eq_one.1 hxa
  exact ⟨finite_of_all x _ _ _ hx, finite_of_all a _ _ _ ha, finite_of_all b _ _ _ hb⟩

end Cert.Lora

end
-- ==== Proof.lean ====
/-
  A low-rank update of a fused three-block linear layer, against the merged-weight reference.

  The input is a batch of 1024 rows x of length 4096. Two groups g = 0, 1 each have a 16 × 4096 factor a_g and a
  4096 × 16 factor b_g. The kernel computes, per row and per group, the factored product
      Σ_k (Σ_i x_i · a_g(k, i)) · b_g(o, k),
  writes group 0 to output columns 0 … 4095, zeros to columns 4096 … 8191, and group 1 to columns 8192 … 12287.
  The reference first forms the merged weights  w_g(o, i) = Σ_k b_g(o, k) · a_g(k, i),  places them in blocks 0 and
  2 of a zero 12288 × 4096 weight, and contracts each row with it:  Σ_i x_i · w(o, i).

  On the extended reals the two agree when every input entry is a real number: then all sums and products are
  real, the product distributes over the inner sum, and the two sums commute. The middle block is a row contracted
  with zeros, which is zero. Rounding to the narrower float format inside the kernel is the identity on the ideal
  values, and a reshape keeps the row-major position of every entry.

  The kernel program's run and the array its region leaves come from the frame of its one region, read block by
  block (rows 128 t … 128 t + 127 at grid point t); the reference's run is the composition of its operations, the
  scatter read element by element (its two updates land on distinct blocks).
-/
import proofs.«156483_j58076547776655_1_alg».proof.Defs
import proofs.«156483_j58076547776655_1_alg».proof.Proof.Gen.Kernel
import proofs.«156483_j58076547776655_1_alg».proof.Proof.Gen.Kernel.Skeleton
import proofs.«156483_j58076547776655_1_alg».proof.Proof.Gen.Kernel.Launch
import proofs.«156483_j58076547776655_1_alg».proof.Proof.Gen.Kernel.Points
import proofs.«156483_j58076547776655_1_alg».proof.Proof.Gen.Kernel.Frame
import proofs.«156483_j58076547776655_1_alg».proof.Proof.Gen.KernelIdeal
import proofs.«156483_j58076547776655_1_alg».proof.Proof.Gen.KernelIdeal.Skeleton
import proofs.«156483_j58076547776655_1_alg».proof.Proof.Gen.KernelIdeal.Launch
import proofs.«156483_j58076547776655_1_alg».proof.Proof.Gen.KernelIdeal.Points
import proofs.«156483_j58076547776655_1_alg».proof.Proof.Gen.KernelIdeal.Frame
import proofs.«156483_j58076547776655_1_alg».proof.Proof.Gen.ReferenceIdeal
import proofs.«156483_j58076547776655_1_alg».proof.Proof.Gen.Pre_finite_inputs
import proofs.«156483_j58076547776655_1_alg».proof.Proof.KRun
import proofs.«156483_j58076547776655_1_alg».proof.Proof.RRead
import proofs.«156483_j58076547776655_1_alg».proof.Proof.Law
import proofs.«156483_j58076547776655_1_alg».proof.Proof.Finite
import Idealize.ShloMosaic.Adequacy
import Idealize.ShloMosaic.Init

noncomputable section

namespace Cert.Proof

open Idealize.ShloMosaic Idealize.SL.Sem

/-- The kernel program terminates without a fault and leaves its arguments unchanged (word level). -/
theorem frame_kernel : Cert.frame_Kernel := fun m ρ _ => Cert.Kernel.Gen.frame m ρ

/-- The same at the ideal values. -/
theorem frame_kernelIdeal : Cert.frame_KernelIdeal := fun m ρ _ => Cert.KernelIdeal.Gen.frame m ρ

/-- The reference terminates without a fault and leaves its arguments unchanged: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- Both programs end with the factored arrangement of the arguments: the kernel computes it, the reference
    computes the merged arrangement, and the two are equal because the precondition makes every entry real. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2, Cert.ReferenceIdeal.RefValue.refTerm_eq]
  obtain ⟨hx, ha, hb⟩ := Cert.Lora.finite_of_pre _ _ _ (hpre c)
  exact Cert.Lora.outMerged_eq_outFactored _ _ _ hx ha hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
